-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S2000x128 : Shape := ⟨2, ![2000, 128]⟩
abbrev S2000x64 : Shape := ⟨2, ![2000, 64]⟩
abbrev S1700000x64 : Shape := ⟨2, ![1700000, 64]⟩
abbrev S1x64 : Shape := ⟨2, ![1, 64]⟩
abbrev S100000x32 : Shape := ⟨2, ![100000, 32]⟩
abbrev S2000x32 : Shape := ⟨2, ![2000, 32]⟩
abbrev S1700000x32 : Shape := ⟨2, ![1700000, 32]⟩
abbrev S1x32 : Shape := ⟨2, ![1, 32]⟩

abbrev nBuf : Space → Nat
  | .hbm => 88
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x32, .f32⟩
  | .hbm, ⟨80, _⟩ => ⟨S1700000x32, .f32⟩
  | .hbm, ⟨81, _⟩ => ⟨S_, .f32⟩
  | .hbm, ⟨82, _⟩ => ⟨S100000x32, .f32⟩
  | .hbm, ⟨83, _⟩ => ⟨S1700000x1, .i32⟩
  | .hbm, ⟨84, _⟩ => ⟨S100000x32, .f32⟩
  | .hbm, ⟨85, _⟩ => ⟨S1x32, .f32⟩
  | .hbm, ⟨86, _⟩ => ⟨S100000x32, .f32⟩
  | .hbm, ⟨87, _⟩ => ⟨S100000x32, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S64x32, .f32⟩
  | .local _ .vmem, ⟨8, _⟩ => ⟨S2000x32, .f32⟩
  | .local _ .vmem, ⟨9, _⟩ => ⟨S2000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  inb_S64x32_S64x32_0_0 : ∀ a, (![0, 0] : Fin 2 → Nat) a + S64x32.size a ≤ S64x32.size a
  h_S64x32 : 0 < S64x32.numel
  inb_S2000x32_S2000x32_0_0 : ∀ a, (![0, 0] : Fin 2 → Nat) a + S2000x32.size a ≤ S2000x32.size a
  h_S2000x32 : 0 < S2000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x32_S2000x32_1_0_0_1_n_n_wf : DotDims.WF S2000x64 S64x32 S2000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.HostSpec.lean ====
/-
  The host side of a two-layer graph convolution as pure functions of arrays, one per stretch of operations that both
  programs apply: the edge list with the self loops appended (source and destination node of every edge), the
  symmetric normalisation 1/sqrt(deg(src)) · 1/sqrt(deg(dst)) of an edge from the in-degrees, and, for a table of node
  features, "gather the source rows, scale each by its edge's normalisation, add the rows into their destination
  nodes, add the bias" — with a rectifier after the first layer. Nothing here is opened by the certificate: both
  programs apply these same functions, and they differ only in how the dense product that feeds each layer is computed.
-/
import proofs.«119964_j49100066128394_1_alg».proof.Proof.Gen.KernelIdeal

noncomputable section

namespace Cert.KernelIdeal.Spec

open Cert.KernelIdeal Cert.KernelIdeal.Facts₀ Cert.KernelIdeal.Facts Idealize.ShloMosaic Idealize.SL.Sem

variable {F : FTy → Type} [FloatOps F]

set_option quotPrecheck false in
local notation "𝔸[" S ", " e "]" => BufTy.Contents (Elt F) (⟨S, e⟩ : BufTy)

/-- Row `r` of the [2, E] edge list as a vector of E node numbers, followed by the node numbers 0 … N-1 (one self
    loop per node): the 1,700,000 edge ends of one kind. -/
def edgeEnds (r : Fin 2 → ℕ) (hr : S2x1600000.Slices r S1x1600000) (e : 𝔸[S2x1600000, .i32]) : 𝔸[S1700000, .i32] :=
  concatenate S1700000 0
    [⟨S1600000, shapeCast S1600000 (extractStridedSlice S1x1600000 r e hr) shapeCasts_S1x1600000_S1600000⟩,
     ⟨S100000, iotaInDim S100000 32 0⟩] concatenates_S1600000_S100000_S1700000_d0

/-- The source node of every edge. -/
def srcIdx (e : 𝔸[S2x1600000, .i32]) : 𝔸[S1700000, .i32] := edgeEnds ![0, 0] slices_S2x1600000_S1x1600000_0_0 e
/-- The destination node of every edge. -/
def dstIdx (e : 𝔸[S2x1600000, .i32]) : 𝔸[S1700000, .i32] := edgeEnds ![1, 0] slices_S2x1600000_S1x1600000_1_0 e

/-- Node numbers as a column of row indices for a gather: a negative number counts from the end (i + N). -/
def gatherRows (s : 𝔸[S1700000, .i32]) : 𝔸[S1700000x1, .i32] :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Node numbers as a column of row indices for a scatter. -/
def scatterRows (d : 𝔸[S1700000, .i32]) : 𝔸[S1700000x1, .i32] :=
  broadcastInDim S1700000x1 ![0] bcast_S1700000_S1700000x1_0 d

/-- The in-degree of every node: one added per edge into its destination. -/
def degree (d : 𝔸[S1700000, .i32]) : 𝔸[S100000, .f32] :=
  Host.scatterAdd scatter_S100000_S1700000x1_S1700000_n_0_0_1
    (broadcastInDim S100000 ![] bcast_S_S100000 (constant S_ .f32 0x00000000#32))
    (scatterRows d)
    (broadcastInDim S1700000 ![] bcast_S_S1700000 (constant S_ .f32 0x3F800000#32))

/-- 1/sqrt(deg) where the degree is positive, 0 elsewhere. -/
def invSqrtDeg (d : 𝔸[S1700000, .i32]) : 𝔸[S100000, .f32] :=
  select (cmpf (F := F) .ogt (degree d) (broadcastInDim S100000 ![] bcast_S_S100000 (constant S_ .f32 0x00000000#32)))
    (Host.rsqrt (degree d))
    (broadcastInDim S100000 ![] bcast_S_S100000 (constant S_ .f32 0x00000000#32))

/-- The normalisation of every edge, as a column: 1/sqrt(deg src) · 1/sqrt(deg dst). -/
def edgeNorm (s d : 𝔸[S1700000, .i32]) : 𝔸[S1700000x1, .f32] :=
  broadcastInDim S1700000x1 ![0] bcast_S1700000_S1700000x1_0
    (mulf (Host.gather gather_S100000_S1700000x1_S1700000_n_0_n_n_0_1_1 (invSqrtDeg d) (gatherRows s))
      (Host.gather gather_S100000_S1700000x1_S1700000_n_0_n_n_0_1_1 (invSqrtDeg d) (gatherRows d)))

/-- Layer 1 after its dense product `h` [N, 64]: gather the source rows, scale by the edge normalisation, add into the
    destination rows, add the bias. -/
def aggregate64 (h : 𝔸[S100000x64, .f32]) (s d : 𝔸[S1700000, .i32]) (n : 𝔸[S1700000x1, .f32]) (b : 𝔸[S64, .f32]) :
    𝔸[S100000x64, .f32] :=
  addf
    (Host.scatterAdd scatter_S100000x64_S1700000x1_S1700000x64_1_0_0_1
      (broadcastInDim S100000x64 ![] bcast_S_S100000x64 (constant S_ .f32 0x00000000#32))
      (scatterRows d)
      (mulf (Host.gather gather_S100000x64_S1700000x1_S1700000x64_1_0_n_n_0_1_164 h (gatherRows s))
        (broadcastInDim S1700000x64 ![0, 1] bcast_S1700000x1_S1700000x64_0_1 n)))
    (broadcastInDim S100000x64 ![0, 1] bcast_S1x64_S100000x64_0_1 (broadcastInDim S1x64 ![1] bcast_S64_S1x64_1 b))

/-- Layer 1 with its rectifier. -/
def layer1 (h : 𝔸[S100000x64, .f32]) (s d : 𝔸[S1700000, .i32]) (n : 𝔸[S1700000x1, .f32]) (b : 𝔸[S64, .f32]) :
    𝔸[S100000x64, .f32] :=
  maximumf (aggregate64 h s d n b) (broadcastInDim S100000x64 ![] bcast_S_S100000x64 (constant S_ .f32 0x00000000#32))

/-- Layer 2 after its dense product `h` [N, 32]: the same aggregation at 32 columns, no rectifier. -/
def layer2 (h : 𝔸[S100000x32, .f32]) (s d : 𝔸[S1700000, .i32]) (n : 𝔸[S1700000x1, .f32]) (b : 𝔸[S32, .f32]) :
    𝔸[S100000x32, .f32] :=
  addf
    (Host.scatterAdd scatter_S100000x32_S1700000x1_S1700000x32_1_0_0_1
      (broadcastInDim S100000x32 ![] bcast_S_S100000x32 (constant S_ .f32 0x00000000#32))
      (scatterRows d)
      (mulf (Host.gather gather_S100000x32_S1700000x1_S1700000x32_1_0_n_n_0_1_132 h (gatherRows s))
        (broadcastInDim S1700000x32 ![0, 1] bcast_S1700000x1_S1700000x32_0_1 n)))
    (broadcastInDim S100000x32 ![0, 1] bcast_S1x32_S100000x32_0_1 (broadcastInDim S1x32 ![1] bcast_S32_S1x32_1 b))

/-- The whole network over any two dense-product functions: layer 1 of the first product of the node features by
    its weights, layer 2 of the second product of layer 1's output by its weights; both layers over the same edge ends
    and the same edge normalisation, which depend on the edge list alone. What both programs compute, up to how each
    product is made. -/
def twoLayers
    (prod1 : 𝔸[S100000x128, .f32] → 𝔸[S128x64, .f32] → 𝔸[S100000x64, .f32])
    (prod2 : 𝔸[S100000x64, .f32] → 𝔸[S64x32, .f32] → 𝔸[S100000x32, .f32])
    (x : 𝔸[S100000x128, .f32]) (e : 𝔸[S2x1600000, .i32]) (w1 : 𝔸[S128x64, .f32]) (b1 : 𝔸[S64, .f32])
    (w2 : 𝔸[S64x32, .f32]) (b2 : 𝔸[S32, .f32]) : 𝔸[S100000x32, .f32] :=
  layer2 (prod2 (layer1 (prod1 x w1) (srcIdx e) (dstIdx e) (edgeNorm (srcIdx e) (dstIdx e)) b1) w2)
    (srcIdx e) (dstIdx e) (edgeNorm (srcIdx e) (dstIdx e)) b2

end Cert.KernelIdeal.Spec

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.RegionProduct.lean ====
/-
  The two row-blocked matrix products of the kernel program, each read as one array.

  Each region walks the 50 row blocks of a [100000, K] array: at point t it reads rows t * 2000 … t * 2000 + 1999 of the
  left array and the whole [K, N] right array, rounds both to the narrower format (the identity over the extended
  reals), multiplies them into a zero accumulator and writes the [2000, N] result to rows t * 2000 … of the output.
  So the entry (p, q) of the block written at point t is the sum over the contracted coordinate k of
  left (t * 2000 + p, k) * right (k, q), which is entry (t * 2000 + p, q) of the product of the two whole arrays; row r of
  the output lies in the block of point r / 2000, and every point writes its block back, so the blocks cover the output
  and the output array ends as the product of the two arrays the region reads — whatever those arrays hold when the
  region is entered.
-/
import proofs.«119964_j49100066128394_1_alg».proof.Proof.Gen.KernelIdeal.Frame
import proofs.«119964_j49100066128394_1_alg».proof.Proof.LibPlainProduct
import Idealize.ShloMosaic.Lib.Pipeline.Value
import Idealize.ShloMosaic.Lib.ValueIdx
import Idealize.ShloMosaic.PureOps.Ideal.Laws

noncomputable section

namespace Cert.KernelIdeal.RegionProduct

open Cert.KernelIdeal Cert.KernelIdeal.Gen Idealize.ShloMosaic Idealize.ShloMosaic.TcCoe Idealize.SL.Sem
open Idealize.ShloMosaic.Pipeline (Dat)
open Idealize.ShloMosaic.ValueIdx

/-- The zero offset of a rank-2 rectangle, as a constant function. -/
theorem zeros2 : (![0, 0] : Fin 2 → Nat) = fun _ => 0 := funext fun a => by fin_cases a <;> rfl

/-- The first body's result at (p, q): both blocks rounded to the narrower format (the identity over the extended reals)
    and multiplied into a zero accumulator, so the sum over the contracted coordinate k of x0 (p, k) * x1 (k, q). -/
theorem pay0_apply (x0 : Vec Ideal S2000x128 .f32) (x1 : Vec Ideal S128x64 .f32) (p : Fin 2000) (q : Fin 64) :
    k0_pay1 x0 x1 (ix2 p q) = ∑ k : Fin 128, x0 (ix2 p k) * x1 (ix2 k q) :=
  Cert.PlainProduct.matmul_zero_apply (M := 2000) (K := 128) (N := 64) none
    (truncf .bf16 x0 bitsLt_bf16_f32) (truncf .bf16 x1 bitsLt_bf16_f32) p q

/-- The block indices at grid point t: the left operand's and the output's blocks are row block t, column block 0; the
    right operand's block is the whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- Entries read at equal indices have equal products. -/
theorem entry_mul_congr {s₁ s₂ : Shape} (A : FVec Ideal s₁ .f32) (B : FVec Ideal s₂ .f32) {i i' : s₁.Idx} {j j' : s₂.Idx}
    (hi : i = i') (hj : j = j') : A i * B j = A i' * B j' := by rw [hi, hj]

variable (V : (c : Dev nD) → (b : Ref sig .tc) → Buf (Elt Ideal) ((c : Thread nD τ).loc b))

/-! ## Region 0: the product of a [100000, 128] array by a [128, 64] array -/

/-- What point t writes back to the product's array is block t of the whole product: the payload at (p, q) sums
    over the contracted coordinate the left block's row p times the right block's column q; the left block's row p
    is the array's row t * 2000 + p, the right block is the whole right array, and the output block's row p is the
    product's row t * 2000 + p. -/
theorem flushed0 (c : Dev nD) (t : Fin cfg0.N) :
    (dat0 V c).flushed 2 t = ((cfg0.win 2).blk t).view.read (Elt Ideal)
      (Cert.PlainProduct.prod (M := 100000) (K := 128) (N := 64) (φ₁ := .f32) (φ₂ := .f32) (V c main_arg0) (V c main_arg2)) := by
  show (cfg0.win 2).cut (grid0.coords t) ((dat0 V c).after 2 t) = _
  rw [after0_2]
  unfold out0_2
  rw [View.canon_unit_zero zeros2]
  simp only [View.ld_unit_zero (S := S2000x128) zeros2, View.ld_unit_zero (S := S128x64) zeros2]
  funext j
  obtain ⟨p, q, rfl⟩ : ∃ (p : Fin 2000) (q : Fin 64), j = ix2 p q := ⟨j 0, j 1, eq_ix2 j⟩
  obtain ⟨a00, a01, a10, a11, a20, a21⟩ := idx0 t
  have ht : t.val < 50 := N_0 ▸ t.isLt
  have hp : t.val * 2000 + p.val < 100000 := by have := p.isLt; omega
  have e2 : ((cfg0.win 2).blk t).view.emb (ix2 p q) = ix2 (⟨t.val * 2000 + p.val, hp⟩ : Fin 100000) q := by
    funext a; apply Fin.ext
    match a with
    | ⟨0, _⟩ => show win0_2.index t (0 : Fin 2) * 2000 + 1 * p.val = t.val * 2000 + p.val; omega
    | ⟨1, _⟩ => show win0_2.index t (1 : Fin 2) * 64 + 1 * q.val = q.val; omega
  refine (pay0_apply (iblk0 V c 0 t) (iblk0 V c 1 t) p q).trans ?_
  rw [View.read_apply]
  refine Eq.trans ?_ (congrArg (Cert.PlainProduct.prod (M := 100000) (K := 128) (N := 64) (φ₁ := .f32) (φ₂ := .f32) (V c main_arg0) (V c main_arg2)) e2).symm
  rw [Cert.PlainProduct.prod_apply]
  refine Finset.sum_congr rfl fun k _ => ?_
  have e0 : ((cfg0.win 0).blk t).view.emb (ix2 p k) = ix2 (⟨t.val * 2000 + p.val, hp⟩ : Fin 100000) k := by
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  have e1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  exact entry_mul_congr (s₁ := S100000x128) (s₂ := S128x64) (V c main_arg0) (V c main_arg2) e0 e1

/-- An index of the product's array is in point t's block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v31).slice (win0_2.rect t)).set ↔ _
  rw [View.set_slice_whole, Rect.mem_set_unit]
  exact Iff.rfl

/-- Row r of the product's array lies in the block of point r / 2000, and every point writes its block back. -/
theorem cover0 (i : S100000x64.Idx) :
    ∃ t : Fin cfg0.N, (cfg0.win 2).flush t = true ∧ i ∈ ((cfg0.win 2).blk t).view.set := by
  have hi0 : (i 0).val < 100000 := idx2_lt0 i
  have hi1 : (i 1).val < 64 := idx2_lt1 i
  have hN : (i 0).val / 2000 < cfg0.N := by show (i 0).val / 2000 < grid0.N; rw [N_0]; omega
  refine ⟨⟨(i 0).val / 2000, hN⟩, flush0_2 _, ?_⟩
  obtain ⟨-, -, -, -, a20, a21⟩ := idx0 ⟨(i 0).val / 2000, hN⟩
  rw [mem_blk0]
  intro a
  match a with
  | ⟨0, _⟩ => show win0_2.index ⟨(i 0).val / 2000, hN⟩ (0 : Fin 2) * 2000 ≤ (i 0).val ∧ (i 0).val < win0_2.index ⟨(i 0).val / 2000, hN⟩ (0 : Fin 2) * 2000 + 2000; rw [a20]; show (i 0).val / 2000 * 2000 ≤ (i 0).val ∧ (i 0).val < (i 0).val / 2000 * 2000 + 2000; omega
  | ⟨1, _⟩ => show win0_2.index ⟨(i 0).val / 2000, hN⟩ (1 : Fin 2) * 64 ≤ (i 1).val ∧ (i 1).val < win0_2.index ⟨(i 0).val / 2000, hN⟩ (1 : Fin 2) * 64 + 64; rw [a21]; omega

/-- Region 0 leaves in its output array the product of the two arrays it reads. -/
theorem region0_array (c : Dev nD) :
    (dat0 V c).arrAt 2 cfg0.N = Cert.PlainProduct.prod (M := 100000) (K := 128) (N := 64) (φ₁ := .f32) (φ₂ := .f32) (V c main_arg0) (V c main_arg2) :=
  (dat0 V c).arrAt_eq_of_cover 2 _ (fun t _ => flushed0 V c t) cover0

/-! ## Region 1: the product of a [100000, 64] array by a [64, 32] array -/

/-- The second body's result at (p, q): the reshape to the same shape and the rounding are the identity, so again the sum
    over the contracted coordinate k of x0 (p, k) * x1 (k, q). -/
theorem pay1_apply (x0 : Vec Ideal S2000x64 .f32) (x1 : Vec Ideal S64x32 .f32) (p : Fin 2000) (q : Fin 32) :
    k1_pay1 x0 x1 (ix2 p q) = ∑ k : Fin 64, x0 (ix2 p k) * x1 (ix2 k q) := by
  refine (Cert.PlainProduct.matmul_zero_apply (M := 2000) (K := 64) (N := 32) none
    (truncf .bf16 (shapeCast S2000x64 x0 shapeCasts_S2000x64_S2000x64) bitsLt_bf16_f32)
    (truncf .bf16 x1 bitsLt_bf16_f32) p q).trans ?_
  rw [shapeCast_self x0 shapeCasts_S2000x64_S2000x64]
  rfl

/-- The block indices at grid point t, as in region 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0)

/-- What point t writes back to the second product's array is block t of the whole product. -/
theorem flushed1 (c : Dev nD) (t : Fin cfg1.N) :
    (dat1 V c).flushed 2 t = ((cfg1.win 2).blk t).view.read (Elt Ideal)
      (Cert.PlainProduct.prod (M := 100000) (K := 64) (N := 32) (φ₁ := .f32) (φ₂ := .f32) (V c main_v47) (V c main_arg4)) := by
  show (cfg1.win 2).cut (grid1.coords t) ((dat1 V c).after 2 t) = _
  rw [after1_2]
  unfold out1_2
  rw [View.canon_unit_zero zeros2]
  simp only [View.ld_unit_zero (S := S2000x64) zeros2, View.ld_unit_zero (S := S64x32) zeros2]
  funext j
  obtain ⟨p, q, rfl⟩ : ∃ (p : Fin 2000) (q : Fin 32), j = ix2 p q := ⟨j 0, j 1, eq_ix2 j⟩
  obtain ⟨a00, a01, a10, a11, a20, a21⟩ := idx1 t
  have ht : t.val < 50 := N_1 ▸ t.isLt
  have hp : t.val * 2000 + p.val < 100000 := by have := p.isLt; omega
  have e2 : ((cfg1.win 2).blk t).view.emb (ix2 p q) = ix2 (⟨t.val * 2000 + p.val, hp⟩ : Fin 100000) q := by
    funext a; apply Fin.ext
    match a with
    | ⟨0, _⟩ => show win1_2.index t (0 : Fin 2) * 2000 + 1 * p.val = t.val * 2000 + p.val; omega
    | ⟨1, _⟩ => show win1_2.index t (1 : Fin 2) * 32 + 1 * q.val = q.val; omega
  refine (pay1_apply (iblk1 V c 0 t) (iblk1 V c 1 t) p q).trans ?_
  rw [View.read_apply]
  refine Eq.trans ?_ (congrArg (Cert.PlainProduct.prod (M := 100000) (K := 64) (N := 32) (φ₁ := .f32) (φ₂ := .f32) (V c main_v47) (V c main_arg4)) e2).symm
  rw [Cert.PlainProduct.prod_apply]
  refine Finset.sum_congr rfl fun k _ => ?_
  have e0 : ((cfg1.win 0).blk t).view.emb (ix2 p k) = ix2 (⟨t.val * 2000 + p.val, hp⟩ : Fin 100000) k := by
    funext a; apply Fin.ext
    match a with
    | ⟨0, _⟩ => show win1_0.index t (0 : Fin 2) * 2000 + 1 * p.val = t.val * 2000 + p.val; omega
    | ⟨1, _⟩ => show win1_0.index t (1 : Fin 2) * 64 + 1 * k.val = k.val; omega
  have e1 : ((cfg1.win 1).blk t).view.emb (ix2 k q) = ix2 k q := by
    funext a; apply Fin.ext
    match a with
    | ⟨0, _⟩ => show win1_1.index t (0 : Fin 2) * 64 + 1 * k.val = k.val; omega
    | ⟨1, _⟩ => show win1_1.index t (1 : Fin 2) * 32 + 1 * q.val = q.val; omega
  exact entry_mul_congr (s₁ := S100000x64) (s₂ := S64x32) (V c main_v47) (V c main_arg4) e0 e1

/-- An index of the second product's array is in point t's block iff each coordinate is in the block's range on its axis. -/
theorem mem_blk1 (t : Fin cfg1.N) (i : S100000x32.Idx) :
    i ∈ ((cfg1.win 2).blk t).view.set ↔ ∀ a : Fin 2, win1_2.index t a * S2000x32.size a ≤ (i a).val ∧ (i a).val < win1_2.index t a * S2000x32.size a + S2000x32.size a := by
  show i ∈ ((View.whole main_v48).slice (win1_2.rect t)).set ↔ _
  rw [View.set_slice_whole, Rect.mem_set_unit]
  exact Iff.rfl

/-- Row r of the second product's array lies in the block of point r / 2000, and every point writes its block back. -/
theorem cover1 (i : S100000x32.Idx) :
    ∃ t : Fin cfg1.N, (cfg1.win 2).flush t = true ∧ i ∈ ((cfg1.win 2).blk t).view.set := by
  have hi0 : (i 0).val < 100000 := idx2_lt0 i
  have hi1 : (i 1).val < 32 := idx2_lt1 i
  have hN : (i 0).val / 2000 < cfg1.N := by show (i 0).val / 2000 < grid1.N; rw [N_1]; omega
  refine ⟨⟨(i 0).val / 2000, hN⟩, flush1_2 _, ?_⟩
  obtain ⟨-, -, -, -, a20, a21⟩ := idx1 ⟨(i 0).val / 2000, hN⟩
  rw [mem_blk1]
  intro a
  match a with
  | ⟨0, _⟩ => show win1_2.index ⟨(i 0).val / 2000, hN⟩ (0 : Fin 2) * 2000 ≤ (i 0).val ∧ (i 0).val < win1_2.index ⟨(i 0).val / 2000, hN⟩ (0 : Fin 2) * 2000 + 2000; rw [a20]; show (i 0).val / 2000 * 2000 ≤ (i 0).val ∧ (i 0).val < (i 0).val / 2000 * 2000 + 2000; omega
  | ⟨1, _⟩ => show win1_2.index ⟨(i 0).val / 2000, hN⟩ (1 : Fin 2) * 32 ≤ (i 1).val ∧ (i 1).val < win1_2.index ⟨(i 0).val / 2000, hN⟩ (1 : Fin 2) * 32 + 32; rw [a21]; omega

/-- Region 1 leaves in its output array the product of the two arrays it reads. -/
theorem region1_array (c : Dev nD) :
    (dat1 V c).arrAt 2 cfg1.N = Cert.PlainProduct.prod (M := 100000) (K := 64) (N := 32) (φ₁ := .f32) (φ₂ := .f32) (V c main_v47) (V c main_arg4) :=
  (dat1 V c).arrAt_eq_of_cover 2 _ (fun t _ => flushed1 V c t) cover1

end Cert.KernelIdeal.RegionProduct

end
-- ==== Proof.KernelFold.lean ====
/-
  The kernel program's result, read back through its run. Between the launch and the return the buffers pass through
  three stretches of host operations, a row-blocked matrix product, two more stretches, a second product and a last
  stretch. Reading the result buffer backwards through these boundaries: it is layer 2's aggregation of the second
  product's array; that product's left operand is layer 1's aggregation (with its rectifier) of the first product's
  array; and the edge ends and the edge normalisation both layers use are computed once, before the first product, from
  the edge list alone. No later stretch and no product rewrites them, and nothing rewrites an argument. Each product's
  array is the plain product of the two arrays its region reads, so over the extended reals the result is the two
  layers over plain products of the arguments.
-/
import proofs.«119964_j49100066128394_1_alg».proof.Proof.Gen.KernelIdeal.Frame
import proofs.«119964_j49100066128394_1_alg».proof.Proof.HostSpec
import proofs.«119964_j49100066128394_1_alg».proof.Proof.RegionProduct
import Idealize.ShloMosaic.Lib.StableHlo.Run

set_option maxRecDepth 16384

noncomputable section

namespace Cert.KernelIdeal.Fold

open Cert.KernelIdeal Cert.KernelIdeal.Gen Cert.KernelIdeal.Spec
open Idealize.ShloMosaic Idealize.ShloMosaic.TcCoe Idealize.SL.Sem Idealize.ShloMosaic.StableHlo

/-- What a buffer holds after a stretch of operations: one simplification pass over the stretch, then the rewriting
    loop for what that pass leaves inside the operand lists of a concatenate. -/
macro "fold_results" : tactic =>
  `(tactic| (after_results_simp
             repeat (first
               | rw [nullary_result] | rw [unary_result] | rw [binary_result] | rw [reshape_result]
               | (rw [nullary_result_ne]; rotate_left; decide)
               | (rw [unary_result_ne]; rotate_left; decide)
               | (rw [binary_result_ne]; rotate_left; decide)
               | (rw [reshape_result_ne]; rotate_left; decide))))

variable {F : FTy → Type} [FloatOps F]
variable (m : (ℓ : Loc nD τ sig) → Buf (Elt F) ℓ) (ρ : Dev nD → PrngReg)

/-! ## Before the first product: the edge ends, the edge normalisation, the arguments -/

theorem W3_src (c : Dev nD) : W3 m ρ c (Proc.devRef .tc main_v3) = srcIdx (m ((c : Thread nD τ).loc main_arg1)) := by
  dsimp only [W3, W2, W1, hostOps0, hostOps0_1, hostOps0_2]
  fold_results
  rfl

theorem W3_dst (c : Dev nD) : W3 m ρ c (Proc.devRef .tc main_v6) = dstIdx (m ((c : Thread nD τ).loc main_arg1)) := by
  dsimp only [W3, W2, W1, hostOps0, hostOps0_1, hostOps0_2]
  fold_results
  rfl

theorem W3_norm (c : Dev nD) : W3 m ρ c (Proc.devRef .tc main_v30)
    = edgeNorm (srcIdx (m ((c : Thread nD τ).loc main_arg1))) (dstIdx (m ((c : Thread nD τ).loc main_arg1))) := by
  dsimp only [W3, W2, W1, hostOps0, hostOps0_1, hostOps0_2]
  fold_results
  rfl

theorem W3_arg0 (c : Dev nD) : W3 m ρ c (Proc.devRef .tc main_arg0) = m ((c : Thread nD τ).loc main_arg0) := by
  dsimp only [W3, W2, W1, hostOps0, hostOps0_1, hostOps0_2]; fold_results; try rfl
theorem W3_arg2 (c : Dev nD) : W3 m ρ c (Proc.devRef .tc main_arg2) = m ((c : Thread nD τ).loc main_arg2) := by
  dsimp only [W3, W2, W1, hostOps0, hostOps0_1, hostOps0_2]; fold_results; try rfl
theorem W3_arg3 (c : Dev nD) : W3 m ρ c (Proc.devRef .tc main_arg3) = m ((c : Thread nD τ).loc main_arg3) := by
  dsimp only [W3, W2, W1, hostOps0, hostOps0_1, hostOps0_2]; fold_results; try rfl
theorem W3_arg4 (c : Dev nD) : W3 m ρ c (Proc.devRef .tc main_arg4) = m ((c : Thread nD τ).loc main_arg4) := by
  dsimp only [W3, W2, W1, hostOps0, hostOps0_1, hostOps0_2]; fold_results; try rfl
theorem W3_arg5 (c : Dev nD) : W3 m ρ c (Proc.devRef .tc main_arg5) = m ((c : Thread nD τ).loc main_arg5) := by
  dsimp only [W3, W2, W1, hostOps0, hostOps0_1, hostOps0_2]; fold_results; try rfl

/-! ## Between the products: layer 1 of the first product's array -/

theorem W6_layer1 (c : Dev nD) : W6 m ρ c (Proc.devRef .tc main_v47)
    = layer1 (W4 m ρ c (Proc.devRef .tc main_v31)) (W4 m ρ c (Proc.devRef .tc main_v3)) (W4 m ρ c (Proc.devRef .tc main_v6))
        (W4 m ρ c (Proc.devRef .tc main_v30)) (W4 m ρ c (Proc.devRef .tc main_arg3)) := by
  dsimp only [W6, W5, hostOps1, hostOps1_1]
  fold_results
  rfl

theorem W6_src (c : Dev nD) : W6 m ρ c (Proc.devRef .tc main_v3) = W4 m ρ c (Proc.devRef .tc main_v3) := by
  dsimp only [W6, W5, hostOps1, hostOps1_1]; fold_results; try rfl
theorem W6_dst (c : Dev nD) : W6 m ρ c (Proc.devRef .tc main_v6) = W4 m ρ c (Proc.devRef .tc main_v6) := by
  dsimp only [W6, W5, hostOps1, hostOps1_1]; fold_results; try rfl
theorem W6_norm (c : Dev nD) : W6 m ρ c (Proc.devRef .tc main_v30) = W4 m ρ c (Proc.devRef .tc main_v30) := by
  dsimp only [W6, W5, hostOps1, hostOps1_1]; fold_results; try rfl
theorem W6_arg4 (c : Dev nD) : W6 m ρ c (Proc.devRef .tc main_arg4) = W4 m ρ c (Proc.devRef .tc main_arg4) := by
  dsimp only [W6, W5, hostOps1, hostOps1_1]; fold_results; try rfl
theorem W6_arg5 (c : Dev nD) : W6 m ρ c (Proc.devRef .tc main_arg5) = W4 m ρ c (Proc.devRef .tc main_arg5) := by
  dsimp only [W6, W5, hostOps1, hostOps1_1]; fold_results; try rfl

/-! ## After the second product: layer 2 of its array -/

theorem W8_layer2 (c : Dev nD) : W8 m ρ c (Proc.devRef .tc main_v63)
    = layer2 (W7 m ρ c (Proc.devRef .tc main_v48)) (W7 m ρ c (Proc.devRef .tc main_v3)) (W7 m ρ c (Proc.devRef .tc main_v6))
        (W7 m ρ c (Proc.devRef .tc main_v30)) (W7 m ρ c (Proc.devRef .tc main_arg5)) := by
  dsimp only [W8, hostOps2]
  fold_results
  rfl

end Cert.KernelIdeal.Fold

namespace Cert.KernelIdeal.Fold

open Cert.KernelIdeal Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The result over the extended reals -/

/-- The first product's array: the plain product of the node features by the first weights. -/
theorem first_product (c : Dev nD) : W4 m ρ c (Proc.devRef .tc main_v31)
    = Cert.PlainProduct.prod (M := 100000) (K := 128) (N := 64) (φ₁ := .f32) (φ₂ := .f32)
        (m ((c : Thread nD τ).loc main_arg0)) (m ((c : Thread nD τ).loc main_arg2)) := by
  refine ((W4_arr m ρ c 2).trans (Cert.KernelIdeal.RegionProduct.region0_array (V3 m ρ) c)).trans ?_
  show Cert.PlainProduct.prod (M := 100000) (K := 128) (N := 64) (φ₁ := .f32) (φ₂ := .f32)
    (W3 m ρ c (Proc.devRef .tc main_arg0)) (W3 m ρ c (Proc.devRef .tc main_arg2)) = _
  rw [W3_arg0, W3_arg2]

/-- The second product's array: the plain product of what the region finds in its left operand's buffer by the second
    weights. -/
theorem second_product (c : Dev nD) : W7 m ρ c (Proc.devRef .tc main_v48)
    = Cert.PlainProduct.prod (M := 100000) (K := 64) (N := 32) (φ₁ := .f32) (φ₂ := .f32)
        (W6 m ρ c (Proc.devRef .tc main_v47)) (m ((c : Thread nD τ).loc main_arg4)) := by
  refine ((W7_arr m ρ c 2).trans (Cert.KernelIdeal.RegionProduct.region1_array (V6 m ρ) c)).trans ?_
  show Cert.PlainProduct.prod (M := 100000) (K := 64) (N := 32) (φ₁ := .f32) (φ₂ := .f32)
    (W6 m ρ c (Proc.devRef .tc main_v47)) (W6 m ρ c (Proc.devRef .tc main_arg4)) = _
  rw [W6_arg4, W4_of_ne m ρ c main_arg4 (by decide), W3_arg4]

/-- The kernel program's result buffer at the return: the two layers over the plain products of the arguments. -/
theorem result (c : Dev nD) : W8 m ρ c (Proc.devRef .tc main_v63)
    = twoLayers (F := Ideal) (fun l r => Cert.PlainProduct.prod (φ₁ := .f32) (φ₂ := .f32) l r)
        (fun l r => Cert.PlainProduct.prod (φ₁ := .f32) (φ₂ := .f32) l r)
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  rw [W8_layer2, second_product, W6_layer1, first_product,
    W7_of_ne m ρ c main_v3 (by decide), W7_of_ne m ρ c main_v6 (by decide), W7_of_ne m ρ c main_v30 (by decide),
    W7_of_ne m ρ c main_arg5 (by decide), W6_src, W6_dst, W6_norm, W6_arg5,
    W4_of_ne m ρ c main_v3 (by decide), W4_of_ne m ρ c main_v6 (by decide), W4_of_ne m ρ c main_v30 (by decide),
    W4_of_ne m ρ c main_arg3 (by decide), W4_of_ne m ρ c main_arg5 (by decide),
    W3_src, W3_dst, W3_norm, W3_arg3, W3_arg5]
  rfl

end Cert.KernelIdeal.Fold

end
-- ==== Proof.RefSide.lean ====
/-
  The reference program's result as the same two layers the kernel program applies, each over the HOST's dense product
  of its operands; and, on the extended reals, each host product as the plain sum over the contracted coordinate.
  The reference recomputes the edge normalisation for its second layer; it is the same function of the edge list.
-/
import proofs.«119964_j49100066128394_1_alg».proof.Proof.RefRun
import proofs.«119964_j49100066128394_1_alg».proof.Proof.HostSpec
import proofs.«119964_j49100066128394_1_alg».proof.Proof.LibPlainProduct

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem
open Cert.KernelIdeal.Spec

variable {F : FTy → Type} [FloatOps F]

/-- The reference's composed term is the two layers over the host's products: the same operations in the same order. -/
theorem res_eq (m : (ℓ : Loc nD τ sig) → Buf (Elt F) ℓ) (c : Dev nD) :
    res_main_v87 m c
      = twoLayers (fun l r => Host.dotGeneral dot_S100000x128_S128x64_S100000x64_1_0_0_1_n_n none l r)
          (fun l r => Host.dotGeneral dot_S100000x64_S64x32_S100000x32_1_0_0_1_n_n none l r)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold res_main_v87
  rfl

/-- On the extended reals the host's first product is the plain sum over the 128 contracted coordinates. -/
theorem dot1_eq (l : FVec Ideal ⟨2, ![100000, 128]⟩ .f32) (r : FVec Ideal ⟨2, ![128, 64]⟩ .f32) :
    Host.dotGeneral (F := Ideal) dot_S100000x128_S128x64_S100000x64_1_0_0_1_n_n none l r = Cert.PlainProduct.prod l r :=
  Cert.PlainProduct.dotGeneral_eq_prod (M := 100000) (K := 128) (N := 64) none l r

/-- On the extended reals the host's second product is the plain sum over the 64 contracted coordinates. -/
theorem dot2_eq (l : FVec Ideal ⟨2, ![100000, 64]⟩ .f32) (r : FVec Ideal ⟨2, ![64, 32]⟩ .f32) :
    Host.dotGeneral (F := Ideal) dot_S100000x64_S64x32_S100000x32_1_0_0_1_n_n none l r = Cert.PlainProduct.prod l r :=
  Cert.PlainProduct.dotGeneral_eq_prod (M := 100000) (K := 64) (N := 32) none l r

/-- The reference's result on the extended reals: the two layers over the plain products. -/
theorem res_eq_prod (m : (ℓ : Loc nD τ sig) → Buf (Elt Ideal) ℓ) (c : Dev nD) :
    res_main_v87 m c
      = twoLayers (F := Ideal) (fun l r => Cert.PlainProduct.prod (φ₁ := .f32) (φ₂ := .f32) l r)
          (fun l r => Cert.PlainProduct.prod (φ₁ := .f32) (φ₂ := .f32) l r)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have e1 : (fun (l : BufTy.Contents (Elt Ideal) ⟨Cert.KernelIdeal.S100000x128, .f32⟩)
      (r : BufTy.Contents (Elt Ideal) ⟨Cert.KernelIdeal.S128x64, .f32⟩) =>
      Host.dotGeneral (F := Ideal) dot_S100000x128_S128x64_S100000x64_1_0_0_1_n_n none l r)
      = fun l r => Cert.PlainProduct.prod (φ₁ := .f32) (φ₂ := .f32) l r :=
    funext fun l => funext fun r => dot1_eq l r
  have e2 : (fun (l : BufTy.Contents (Elt Ideal) ⟨Cert.KernelIdeal.S100000x64, .f32⟩)
      (r : BufTy.Contents (Elt Ideal) ⟨Cert.KernelIdeal.S64x32, .f32⟩) =>
      Host.dotGeneral (F := Ideal) dot_S100000x64_S64x32_S100000x32_1_0_0_1_n_n none l r)
      = fun l r => Cert.PlainProduct.prod (φ₁ := .f32) (φ₂ := .f32) l r :=
    funext fun l => funext fun r => dot2_eq l r
  rw [res_eq, e1, e2]

end Cert.ReferenceIdeal.RefValue

end
-- ==== Proof.lean ====
/-
  A two-layer graph convolution, x ↦ Â·relu(Â·(x·W1) + b1)·W2 + b2 with Â the symmetrically normalised adjacency
  (self loops added) applied edge by edge: gather the source rows, scale each by 1/sqrt(deg src)·1/sqrt(deg dst), add
  into the destination rows. The kernel program makes the two dense products x·W1 and h·W2 in row blocks of 2000 on
  the matrix unit, from operands rounded to a narrower format, and does the edge work on the host; the reference makes
  the products on the host. Over the extended reals rounding is the identity and either product, read at an entry, is
  the plain sum over the contracted coordinate, a sum in a commutative monoid whatever the operands hold — so no
  finiteness is used. Everything else — the edge ends, the degrees, the normalisation, the gathers and the
  accumulating scatters, the biases, the rectifier — is the same chain of operations in both programs, carried as one
  function (`Spec.twoLayers`) of the two product functions and never opened. The reference recomputes the
  normalisation for its second layer; it is the same function of the edge list.

  The frames: both kernel programs' are the run of @main's segments from the launch to the return, each region a
  row-blocked product whose body loads two blocks and stores one; the reference's is its run with the result dropped.
  The idealization rewrote nothing, so `preserves` has nothing to state.
-/
import proofs.«119964_j49100066128394_1_alg».proof.Defs
import proofs.«119964_j49100066128394_1_alg».proof.Proof.Gen.Kernel
import proofs.«119964_j49100066128394_1_alg».proof.Proof.Gen.Kernel.Frame
import proofs.«119964_j49100066128394_1_alg».proof.Proof.Gen.KernelIdeal
import proofs.«119964_j49100066128394_1_alg».proof.Proof.Gen.KernelIdeal.Frame
import proofs.«119964_j49100066128394_1_alg».proof.Proof.Gen.ReferenceIdeal
import proofs.«119964_j49100066128394_1_alg».proof.Proof.Gen.Pre_finite_inputs
import proofs.«119964_j49100066128394_1_alg».proof.Proof.KernelRun
import proofs.«119964_j49100066128394_1_alg».proof.Proof.KernelFold
import proofs.«119964_j49100066128394_1_alg».proof.Proof.RefRun
import proofs.«119964_j49100066128394_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the result at the two layers over the plain
    products of the arguments: the kernel program by its run read back through the regions, the reference by its run's
    composed term. -/
theorem algebraic : Cert.algebraic_KernelIdeal_ReferenceIdeal := by
  intro m ρ m' ρ' _ hagree
  refine ⟨fun c => Cert.KernelIdeal.Spec.twoLayers (F := Ideal)
      (fun l r => Cert.PlainProduct.prod (φ₁ := .f32) (φ₂ := .f32) l r)
      (fun l r => Cert.PlainProduct.prod (φ₁ := .f32) (φ₂ := .f32) l r)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq_prod, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
